-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S2048 : Shape := ⟨1, ![2048]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn {F : FTy → Type} [FloatOps F] (main_arg0 : FVec F S16384x512 .f32) (main_arg1 : FVec F S2048x512 .f32) (main_arg2 : FVec F S2048 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  main_v13
-- ==== Kernel.lean ====
abbrev S16384x512 : Shape := ⟨2, ![16384, 512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S16384x2048 : Shape := ⟨2, ![16384, 2048]⟩
abbrev S1024x512 : Shape := ⟨2, ![1024, 512]⟩
abbrev S512x512 : Shape := ⟨2, ![512, 512]⟩
abbrev S1x512 : Shape := ⟨2, ![1, 512]⟩
abbrev S1024 : Shape := ⟨1, ![1024]⟩
abbrev S1024x1 : Shape := ⟨2, ![1024, 1]⟩
abbrev S512 : Shape := ⟨1, ![512]⟩

abbrev nBuf : Space → Nat
  | .hbm => 6
  | .vmem => 8
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S512x2048, .f32⟩
  | .hbm, ⟨4, _⟩ => ⟨S1x2048, .f32⟩
  | .hbm, ⟨5, _⟩ => ⟨S16384x2048, .f32⟩
  | .local _ .vmem, ⟨0, _⟩ => ⟨S1024x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S1024x512, .f32⟩
  | .local _ .vmem, ⟨7, _⟩ => ⟨S1024x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  transposes_S2048x512_S512x2048_1_0 : S2048x512.Transposes [1, 0] S512x2048
  shapeCasts_S2048_S1x2048 : S2048.ShapeCasts S1x2048
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  reduces_S1024x512_S1024 : S1024x512.Reduces [1] S1024
  shapeCasts_S1024_S1024x1 : S1024.ShapeCasts S1024x1
  reduces_S512x512_S512 : S512x512.Reduces [0] S512
  shapeCasts_S512_S1x512 : S512.ShapeCasts S1x512
  bitsLt_bf16_f32 : FTy.bits .bf16 < FTy.bits .f32
  broadcasts_S1024x1_S1024x512 : S1024x1.Broadcasts S1024x512
  broadcasts_S1x512_S1024x512 : S1x512.Broadcasts S1024x512
  dot_S1024x512_S512x512_S1024x512_1_0_0_1_n_n_wf : DotDims.WF S1024x512 S512x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x2048.size a
  hwx0_1 : ∀ i : grid0.Coords, EltTy.bits .f32 = 32 ∨ (Rect.block (s := S512x2048) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x512.size a ≤ S16384x2048.size a
  hwx0_3 : ∀ i : grid0.Coords, EltTy.bits .f32 = 32 ∨ (Rect.block (s := S16384x2048) S1024x512.size (cc0_transform_3 i) (hinb0_3 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S2048 : Shape := ⟨1, ![2048]⟩
abbrev S_ : Shape := ⟨0, ![]⟩
abbrev S16384 : Shape := ⟨1, ![16384]⟩
abbrev S16384x1 : Shape := ⟨2, ![16384, 1]⟩
abbrev S16384x2048 : Shape := ⟨2, ![16384, 2048]⟩
abbrev S1x2048 : Shape := ⟨2, ![1, 2048]⟩

abbrev nBuf : Space → Nat
  | .hbm => 24
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S16384x512, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S16384x2048, .f32⟩
  | .hbm, ⟨11, _⟩ => ⟨S1x2048, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S_, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048, .f32⟩
  | .hbm, ⟨20, _⟩ => ⟨S1x2048, .f32⟩
  | .hbm, ⟨21, _⟩ => ⟨S16384x2048, .f32⟩
  | .hbm, ⟨22, _⟩ => ⟨S16384x2048, .f32⟩
  | .hbm, ⟨23, _⟩ => ⟨S16384x2048, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩

abbrev nD : Nat := 1
abbrev τ : Topo := Topo.v7x

variable {F : FTy → Type} [FloatOps F]

class Facts₀ : Prop where
  reducesTo_S16384x512_S16384_d1 : S16384x512.ReducesTo [1] S16384
  h_S_ : 0 < S_.numel
  bcast_S16384_S16384x1_0 : S16384.BroadcastsInDim S16384x1 (![0] : Fin 1 → Fin S16384x1.rank)
  reducesTo_S2048x512_S2048_d1 : S2048x512.ReducesTo [1] S2048
  bcast_S2048_S1x2048_1 : S2048.BroadcastsInDim S1x2048 (![1] : Fin 1 → Fin S1x2048.rank)
  bcast_S16384x1_S16384x2048_0_1 : S16384x1.BroadcastsInDim S16384x2048 (![0, 1] : Fin 2 → Fin S16384x2048.rank)
  bcast_S1x2048_S16384x2048_0_1 : S1x2048.BroadcastsInDim S16384x2048 (![0, 1] : Fin 2 → Fin S16384x2048.rank)
  bcast_S_S16384x2048 : S_.BroadcastsInDim S16384x2048 (![] : Fin 0 → Fin S16384x2048.rank)
  dot_S16384x512_S2048x512_S16384x2048_1_1_0_0_n_n_wf : DotDims.WF S16384x512 S2048x512 S16384x2048 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf

class Facts : Prop extends Facts₀ where

variable [Facts]
-- ==== Proof.Spec.lean ====
/-
  The Gaussian radial-basis layer as one function of its three arrays.

  For points `x` (16384 rows of 512 coordinates), centres `ce` (2048 rows of 512 coordinates) and widths `be` (one
  per centre) the response of centre `s` to point `r` is

      exp (-be(s) · ((Σ_k x(r,k)² + Σ_k ce(s,k)²) - 2 · Σ_k x(r,k) · ce(s,k))),

  the squared distance written out through the two squared norms and the inner product. The factor 2 is kept as the
  float word both programs spell; it is the same word on both sides, so its value is never needed.
-/
import Idealize.ShloMosaic.PureOps.Ideal
import Idealize.ShloMosaic.Lib.ValueIdx

noncomputable section

namespace Cert.Rbf

open Idealize.ShloMosaic Idealize.ShloMosaic.ValueIdx

/-- The response array: entry `(r, s)` is the response of centre `s` to point `r`. -/
def response (x : (⟨2, ![16384, 512]⟩ : Shape).Idx → EReal) (ce : (⟨2, ![2048, 512]⟩ : Shape).Idx → EReal)
    (be : (⟨1, ![2048]⟩ : Shape).Idx → EReal) : (⟨2, ![16384, 2048]⟩ : Shape).Idx → EReal := fun i =>
  Ideal.exp (-(be (ix1 (i 1)))
    * ((∑ k : Fin 512, x (ix2 (i 0) k) * x (ix2 (i 0) k) + ∑ k : Fin 512, ce (ix2 (i 1) k) * ce (ix2 (i 1) k))
        - Ideal.ofBits .f32 0x40000000#32 * ∑ k : Fin 512, x (ix2 (i 0) k) * ce (ix2 (i 1) k)))

/-- The response read at an index whose two coordinates are known. -/
theorem response_at (x : (⟨2, ![16384, 512]⟩ : Shape).Idx → EReal) (ce : (⟨2, ![2048, 512]⟩ : Shape).Idx → EReal)
    (be : (⟨1, ![2048]⟩ : Shape).Idx → EReal) (i : (⟨2, ![16384, 2048]⟩ : Shape).Idx) (r : Fin 16384) (s : Fin 2048)
    (hr : (i 0).val = r.val) (hs : (i 1).val = s.val) :
    response x ce be i
      = Ideal.exp (-(be (ix1 s))
          * ((∑ k : Fin 512, x (ix2 r k) * x (ix2 r k) + ∑ k : Fin 512, ce (ix2 s k) * ce (ix2 s k))
              - Ideal.ofBits .f32 0x40000000#32 * ∑ k : Fin 512, x (ix2 r k) * ce (ix2 s k))) := by
  obtain rfl : i = ix2 r s := funext fun a => Fin.ext (by match a with | ⟨0, _⟩ => exact hr | ⟨1, _⟩ => exact hs)
  rfl

end Cert.Rbf

end
-- ==== Proof.Payload.lean ====
/-
  One entry of the block the kernel body stores, as a formula in the three blocks it loads.

  The body holds a block `xb` of 1024 rows of the points, a block `cb` of 512 columns of the transposed centre table
  (so `cb (k, q)` is coordinate `k` of the block's centre `q`) and the matching piece `bb` of the row of widths. At
  row `p` and column `q` it stores

      exp ((0 - bb(0,q)) · ((Σ_k xb(p,k)² + Σ_k cb(k,q)²) - 2 · Σ_k xb(p,k) · cb(k,q))).

  The squared norm of a point is a sum along the second axis, that of a centre a sum along the first; each is re-laid as
  a column, resp. a row, and repeated over the block. The cross term is the product of the two blocks accumulated into
  zero: over the extended reals narrowing the factors to a shorter float format changes nothing, so it is the plain sum
  of products over the shared coordinate.
-/
import proofs.«160855_j24137716204066_1_alg».proof.Proof.Gen.KernelIdeal.Skeleton
import proofs.«160855_j24137716204066_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Entry

open Idealize.ShloMosaic Idealize.ShloMosaic.ValueIdx Cert.KernelIdeal Cert.KernelIdeal.Gen

/-! ## The two squared norms -/

/-- Summing a block along its second axis, standing the sums up as a column and repeating the column across the
    block gives, at `(p, q)`, the sum of row `p`. -/
theorem rowSums_apply (v : FVec Ideal S1024x512 .f32) (hacc : (0x00000000#32 : BitVec 32) = 0x00000000#32) (p : Fin 1024) (q : Fin 512) :
    broadcastTo S1024x512 (shapeCast S1024x1 (multiReduction (F := Ideal) .add [1] S1024 v 0x00000000#32 reduces_S1024x512_S1024 (.inl rfl) hacc)
        shapeCasts_S1024_S1024x1) broadcasts_S1024x1_S1024x512 (ix2 p q)
      = ∑ k : Fin 512, v (ix2 p k) := by
  refine (broadcastTo_apply _ broadcasts_S1024x1_S1024x512 (ix2 p q) (ix2 p (0 : Fin 1)) fun a => ?_).trans ?_
  · match a with
    | ⟨0, _⟩ => show p.val = if (1024 : Nat) = 1 then 0 else p.val; rw [if_neg (by decide)]
    | ⟨1, _⟩ => show (0 : Nat) = if (1 : Nat) = 1 then 0 else q.val; rw [if_pos rfl]
  refine (shapeCast_apply _ shapeCasts_S1024_S1024x1 (ix2 p (0 : Fin 1)) (ix1 p) ?_).trans ?_
  · rw [Shape.rowMajor_val_two, Shape.rowMajor_val_one]; show p.val = p.val * 1 + 0; omega
  refine (Ideal.multiReduction_add_single v 0x00000000#32 reduces_S1024x512_S1024 (.inl rfl) hacc (ix1 p)).trans ?_
  exact Finset.sum_congr rfl fun k _ => congrArg v (funext fun a => Fin.ext (by match a with | ⟨0, _⟩ => rfl | ⟨1, _⟩ => rfl))

/-- Summing a block along its first axis, laying the sums down as a row and repeating the row down the block gives,
    at `(p, q)`, the sum of column `q`. -/
theorem colSums_apply (w : FVec Ideal S512x512 .f32) (hacc : (0x00000000#32 : BitVec 32) = 0x00000000#32) (p : Fin 1024) (q : Fin 512) :
    broadcastTo S1024x512 (shapeCast S1x512 (multiReduction (F := Ideal) .add [0] S512 w 0x00000000#32 reduces_S512x512_S512 (.inl rfl) hacc)
        shapeCasts_S512_S1x512) broadcasts_S1x512_S1024x512 (ix2 p q)
      = ∑ k : Fin 512, w (ix2 k q) := by
  refine (broadcastTo_1b_ab_apply _ broadcasts_S1x512_S1024x512 p q).trans ?_
  refine (shapeCast_a_1a_apply _ shapeCasts_S512_S1x512 (0 : Fin 1) q).trans ?_
  refine (Ideal.multiReduction_add_single w 0x00000000#32 reduces_S512x512_S512 (.inl rfl) hacc (ix1 q)).trans ?_
  exact Finset.sum_congr rfl fun k _ => congrArg w (funext fun a => Fin.ext (by match a with | ⟨0, _⟩ => rfl | ⟨1, _⟩ => rfl))

/-! ## The cross term -/

theorem lhs_cross_0 (i : S1024x512.Idx) (r : dot_S1024x512_S512x512_S1024x512_1_0_0_1_n_n.contr.Idx) :
    (dot_S1024x512_S512x512_S1024x512_1_0_0_1_n_n.lhsIdx i r 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem lhs_cross_1 (i : S1024x512.Idx) (r : dot_S1024x512_S512x512_S1024x512_1_0_0_1_n_n.contr.Idx) :
    (dot_S1024x512_S512x512_S1024x512_1_0_0_1_n_n.lhsIdx i r 1).val = (r ⟨0, by decide⟩).val :=
  dot_S1024x512_S512x512_S1024x512_1_0_0_1_n_n.lhsIdx_val_of_single rfl i r
theorem rhs_cross_0 (i : S1024x512.Idx) (r : dot_S1024x512_S512x512_S1024x512_1_0_0_1_n_n.contr.Idx) :
    (dot_S1024x512_S512x512_S1024x512_1_0_0_1_n_n.rhsIdx i r 0).val = (r ⟨0, by decide⟩).val :=
  dot_S1024x512_S512x512_S1024x512_1_0_0_1_n_n.rhsIdx_val_of_single rfl i r
theorem rhs_cross_1 (i : S1024x512.Idx) (r : dot_S1024x512_S512x512_S1024x512_1_0_0_1_n_n.contr.Idx) :
    (dot_S1024x512_S512x512_S1024x512_1_0_0_1_n_n.rhsIdx i r 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- The product of the two blocks, accumulated into zero, is at `(p, q)` the sum over the shared coordinate of row
    `p` of the first against column `q` of the second. -/
theorem cross_apply (a : FVec Ideal S1024x512 .bf16) (b : FVec Ideal S512x512 .bf16) (p : Fin 1024) (q : Fin 512) :
    matmul (F := Ideal) dot_S1024x512_S512x512_S1024x512_1_0_0_1_n_n none a b (constant S1024x512 .f32 0x00000000#32) (ix2 p q)
      = ∑ k : Fin 512, a (ix2 p k) * b (ix2 k q) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact lhs_cross_0 _ _
    | ⟨1, _⟩ => exact (lhs_cross_1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (rhs_cross_0 _ _).trans hk
    | ⟨1, _⟩ => exact rhs_cross_1 _ _)
  rw [el, er]

/-! ## The stored value -/

/-- The entry the body stores at row `p`, column `q` of its block. -/
theorem stored_apply (xb : Vec Ideal S1024x512 .f32) (cb : Vec Ideal S512x512 .f32) (bb : Vec Ideal S1x512 .f32) (p : Fin 1024) (q : Fin 512) :
    k0_pay1 (F := Ideal) xb cb bb (ix2 p q)
      = Ideal.exp ((Ideal.ofBits .f32 0x00000000#32 - bb (ix2 (0 : Fin 1) q))
          * ((∑ k : Fin 512, xb (ix2 p k) * xb (ix2 p k) + ∑ k : Fin 512, cb (ix2 k q) * cb (ix2 k q))
              - Ideal.ofBits .f32 0x40000000#32 * ∑ k : Fin 512, xb (ix2 p k) * cb (ix2 k q))) := by
  unfold k0_pay1
  simp only [shapeCast_self]
  show Ideal.exp (_ * ((_ + _) - _ * _)) = _
  refine congrArg Ideal.exp ?_
  refine congrArg₂ (· * ·) ?_ (congrArg₂ (· - ·) (congrArg₂ (· + ·) ?_ ?_) (congrArg₂ (· * ·) rfl ?_))
  · exact (broadcastTo_1b_ab_apply _ broadcasts_S1x512_S1024x512 p q)
  · exact rowSums_apply (mulf xb xb) rfl p q
  · exact colSums_apply (mulf cb cb) rfl p q
  · exact cross_apply _ _ p q

/-- When row `p` of the block of points is row `r` of the points, column `q` of the block of the transposed table is
    centre `s`, and entry `q` of the piece of widths is the width of centre `s`, the stored entry is the response of
    centre `s` to point `r`: subtracting from zero is negation. -/
theorem stored_eq (xb : Vec Ideal S1024x512 .f32) (cb : Vec Ideal S512x512 .f32) (bb : Vec Ideal S1x512 .f32)
    (x : S16384x512.Idx → EReal) (ce : S2048x512.Idx → EReal) (be : S2048.Idx → EReal)
    (p : Fin 1024) (q : Fin 512) (r : Fin 16384) (s : Fin 2048)
    (hx : ∀ k : Fin 512, xb (ix2 p k) = x (ix2 r k)) (hc : ∀ k : Fin 512, cb (ix2 k q) = ce (ix2 s k))
    (hb : bb (ix2 (0 : Fin 1) q) = be (ix1 s)) :
    k0_pay1 (F := Ideal) xb cb bb (ix2 p q)
      = Ideal.exp (-(be (ix1 s))
          * ((∑ k : Fin 512, x (ix2 r k) * x (ix2 r k) + ∑ k : Fin 512, ce (ix2 s k) * ce (ix2 s k))
              - Ideal.ofBits .f32 0x40000000#32 * ∑ k : Fin 512, x (ix2 r k) * ce (ix2 s k))) := by
  rw [stored_apply, Ideal.ofBits_zero_f32, zero_sub, hb]
  simp only [hx, hc]

end Cert.KernelIdeal.Entry

end
-- ==== Proof.KernelArray.lean ====
/-
  The kernel's result array is the response of its three arguments.

  The grid has 16 × 4 points; point `(a, b)` works on rows 1024·a … 1024·a + 1023 of the points, on columns
  512·b … 512·b + 511 of the transposed centre table and of the row of widths, and writes block `(a, b)` of the result.
  The transposed table and the row of widths are written before the grid starts: entry `(k, s)` of the table is
  coordinate `k` of centre `s`, entry `(0, s)` of the row is the width of centre `s`. So the entry the body stores at
  `(p, q)` of its block is the response of centre `512·b + q` to point `1024·a + p`, which is the response array read
  through block `(a, b)`; the 64 blocks cover the result, block `(r / 1024, s / 512)` holding entry `(r, s)`.
-/
import proofs.«160855_j24137716204066_1_alg».proof.Proof.Gen.KernelIdeal.Value
import proofs.«160855_j24137716204066_1_alg».proof.Proof.Payload
import Idealize.ShloMosaic.Lib.StableHlo.Run

set_option maxRecDepth 16384

noncomputable section

namespace Cert.KernelIdeal.Whole

open Cert.KernelIdeal Cert.KernelIdeal.Gen Cert.KernelIdeal.Value
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-! ## What is written before the grid starts -/

/-- The table the grid reads is the centres transposed. -/
theorem table_eq (c : Dev nD) :
    (V m c main_v0 : S512x2048.Idx → EReal)
      = transpose S512x2048 [1, 0] (m ((c : Thread nD τ).loc main_arg1) : S2048x512.Idx → EReal) transposes_S2048x512_S512x2048_1_0 := by
  dsimp only [V, hostOps0]; after_results

/-- The row the grid reads is the widths laid out as one row. -/
theorem row_eq (c : Dev nD) :
    (V m c main_v1 : S1x2048.Idx → EReal)
      = shapeCast S1x2048 (m ((c : Thread nD τ).loc main_arg2) : S2048.Idx → EReal) shapeCasts_S2048_S1x2048 := by
  dsimp only [V, hostOps0]; after_results; rfl

/-! ## Which block each point works on -/

/-- Over the 64 points: the points' block follows the result's block row, the table's and the widths' blocks follow its
    block column, and the result's block indices range over 16 × 4. -/
theorem idx_facts : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = win0_3.index t (1 : Fin 2)
    ∧ win0_2.index t (0 : Fin 2) = 0 ∧ win0_2.index t (1 : Fin 2) = win0_3.index t (1 : Fin 2)
    ∧ win0_3.index t (0 : Fin 2) ≤ 15 ∧ win0_3.index t (1 : Fin 2) ≤ 3 :=
  (by decide +kernel : ∀ t : Fin grid0.N, _)

/-- Every one of the 16 × 4 blocks of the result is some point's. -/
theorem idx_onto : ∀ (a : Fin 16) (b : Fin 4), ∃ t : Fin cfg0.N, win0_3.index t = ![a.val, b.val] :=
  (by decide +kernel : ∀ (a : Fin 16) (b : Fin 4), ∃ t : Fin grid0.N, win0_3.index t = ![a.val, b.val])

/-- Row `p` of the block of points at point `t` is row `1024·a + p` of the points. -/
theorem ptsBlock_apply (c : Dev nD) (t : Fin cfg0.N) (p : Fin 1024) (k : Fin 512) (r : Fin 16384)
    (hr : r.val = win0_3.index t (0 : Fin 2) * 1024 + p.val) :
    (iblk m c 0 t : Vec Ideal S1024x512 .f32) (ix2 p k) = (m ((c : Thread nD τ).loc main_arg0) : S16384x512.Idx → EReal) (ix2 r k) := by
  obtain ⟨e0, e1, -⟩ := idx_facts t
  refine Eq.trans ?_ (congrFun (V_main_arg0 m c) (ix2 r k))
  unfold iblk
  rw [View.read_apply]
  show V m c main_arg0 _ = V m c main_arg0 _
  refine congrArg (V m c main_arg0) (funext fun a => Fin.ext ?_)
  match a with
  | ⟨0, _⟩ => show win0_0.index t (0 : Fin 2) * 1024 + 1 * p.val = r.val; omega
  | ⟨1, _⟩ => show win0_0.index t (1 : Fin 2) * 512 + 1 * k.val = k.val; omega

/-- Column `q` of the block of the table at point `t` is centre `512·b + q`. -/
theorem tableBlock_apply (c : Dev nD) (t : Fin cfg0.N) (k : Fin 512) (q : Fin 512) (s : Fin 2048)
    (hs : s.val = win0_3.index t (1 : Fin 2) * 512 + q.val) :
    (iblk m c 1 t : Vec Ideal S512x512 .f32) (ix2 k q) = (m ((c : Thread nD τ).loc main_arg1) : S2048x512.Idx → EReal) (ix2 s k) := by
  obtain ⟨-, -, e2, e3, -⟩ := idx_facts t
  refine Eq.trans ?_ ((congrFun (table_eq m c) (ix2 k s)).trans (transpose_ix2_apply _ _ k s))
  unfold iblk
  rw [View.read_apply]
  show V m c main_v0 _ = V m c main_v0 _
  refine congrArg (V m c main_v0) (funext fun a => Fin.ext ?_)
  match a with
  | ⟨0, _⟩ => show win0_1.index t (0 : Fin 2) * 512 + 1 * k.val = k.val; omega
  | ⟨1, _⟩ => show win0_1.index t (1 : Fin 2) * 512 + 1 * q.val = s.val; omega

/-- Entry `q` of the piece of the row of widths at point `t` is the width of centre `512·b + q`. -/
theorem widthBlock_apply (c : Dev nD) (t : Fin cfg0.N) (q : Fin 512) (s : Fin 2048)
    (hs : s.val = win0_3.index t (1 : Fin 2) * 512 + q.val) :
    (iblk m c 2 t : Vec Ideal S1x512 .f32) (ix2 (0 : Fin 1) q) = (m ((c : Thread nD τ).loc main_arg2) : S2048.Idx → EReal) (ix1 s) := by
  obtain ⟨-, -, -, -, e4, e5, -⟩ := idx_facts t
  refine Eq.trans ?_ ((congrFun (row_eq m c) (ix2 (0 : Fin 1) s)).trans (shapeCast_a_1a_apply _ _ (0 : Fin 1) s))
  unfold iblk
  rw [View.read_apply]
  show V m c main_v1 _ = V m c main_v1 _
  refine congrArg (V m c main_v1) (funext fun a => Fin.ext ?_)
  match a with
  | ⟨0, _⟩ => show win0_2.index t (0 : Fin 2) * 1 + 1 * 0 = 0; omega
  | ⟨1, _⟩ => show win0_2.index t (1 : Fin 2) * 512 + 1 * q.val = s.val; omega

/-! ## What each point writes back, and the whole array -/

/-- The response of the three arguments as launched. -/
abbrev result (c : Dev nD) : S16384x2048.Idx → EReal :=
  Cert.Rbf.response (m ((c : Thread nD τ).loc main_arg0)) (m ((c : Thread nD τ).loc main_arg1)) (m ((c : Thread nD τ).loc main_arg2))

/-- Point `t` writes back block `t` of the response. -/
theorem flushed_eq (c : Dev nD) (t : Fin cfg0.N) :
    (dats m 0 c).flushed 3 t = ((cfg0.win 3).blk t).view.read (Elt Ideal) (result m c) := by
  rw [flushed3]
  unfold out0_3
  rw [View.canon_unit_zero origin]
  simp only [View.ld_unit_zero (S := S1024x512) origin, View.ld_unit_zero (S := S512x512) origin, View.ld_unit_zero (S := S1x512) origin]
  obtain ⟨-, -, -, -, -, -, b0, b1⟩ := idx_facts t
  funext j
  obtain ⟨p, q, rfl⟩ : ∃ (p : Fin 1024) (q : Fin 512), j = ix2 p q := ⟨j 0, j 1, eq_ix2 j⟩
  have hp := p.isLt
  have hq := q.isLt
  show k0_pay1 (F := Ideal) (iblk m c 0 t) (iblk m c 1 t) (iblk m c 2 t) (ix2 p q)
    = result m c (((cfg0.win 3).blk t).view.emb (ix2 p q))
  refine (Entry.stored_eq (iblk m c 0 t) (iblk m c 1 t) (iblk m c 2 t)
      (m ((c : Thread nD τ).loc main_arg0)) (m ((c : Thread nD τ).loc main_arg1)) (m ((c : Thread nD τ).loc main_arg2)) p q
      ⟨win0_3.index t (0 : Fin 2) * 1024 + p.val, by omega⟩ ⟨win0_3.index t (1 : Fin 2) * 512 + q.val, by omega⟩
      (fun k => ptsBlock_apply m c t p k _ rfl) (fun k => tableBlock_apply m c t k q _ rfl) (widthBlock_apply m c t q _ rfl)).trans ?_
  refine (Cert.Rbf.response_at _ _ _ _ _ _ ?_ ?_).symm
  · show win0_3.index t (0 : Fin 2) * 1024 + 1 * p.val = win0_3.index t (0 : Fin 2) * 1024 + p.val; omega
  · show win0_3.index t (1 : Fin 2) * 512 + 1 * q.val = win0_3.index t (1 : Fin 2) * 512 + q.val; omega

/-- An entry of the result lies in point `t`'s block iff each coordinate lies in the block's range on its axis. -/
theorem mem_blk (t : Fin cfg0.N) (i : S16384x2048.Idx) :
    i ∈ ((cfg0.win 3).blk t).view.set ↔ ∀ a : Fin 2, win0_3.index t a * S1024x512.size a ≤ (i a).val ∧ (i a).val < win0_3.index t a * S1024x512.size a + S1024x512.size a := by
  show i ∈ ((View.whole main_v2).slice (win0_3.rect t)).set ↔ _
  rw [View.set_slice_whole, Rect.mem_set_unit]
  exact Iff.rfl

/-- Entry `(r, s)` of the result lies in block `(r / 1024, s / 512)`. -/
theorem covered (i : S16384x2048.Idx) : ∃ t : Fin cfg0.N, (cfg0.win 3).flush t = true ∧ i ∈ ((cfg0.win 3).blk t).view.set := by
  have hi0 : (i 0).val < 16384 := (i 0).isLt
  have hi1 : (i 1).val < 2048 := (i 1).isLt
  obtain ⟨t, ht⟩ := idx_onto ⟨(i 0).val / 1024, by omega⟩ ⟨(i 1).val / 512, by omega⟩
  have q0 : win0_3.index t (0 : Fin 2) = (i 0).val / 1024 := congrFun ht 0
  have q1 : win0_3.index t (1 : Fin 2) = (i 1).val / 512 := congrFun ht 1
  refine ⟨t, flush0_3 t, ?_⟩
  rw [mem_blk]
  intro a
  match a with
  | ⟨0, _⟩ => show win0_3.index t (0 : Fin 2) * 1024 ≤ (i 0).val ∧ (i 0).val < win0_3.index t (0 : Fin 2) * 1024 + 1024; omega
  | ⟨1, _⟩ => show win0_3.index t (1 : Fin 2) * 512 ≤ (i 1).val ∧ (i 1).val < win0_3.index t (1 : Fin 2) * 512 + 512; omega

/-- After the grid the result array holds the response. -/
theorem final (c : Dev nD) : (dats m 0 c).arrAt 3 cfg0.N = result m c :=
  (dats m 0 c).arrAt_eq_of_cover 3 (result m c) (fun t _ => flushed_eq m c t) covered

/-- The kernel's run: it ends with the result array at the response of its arguments, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.RefValue.lean ====
/-
  The reference computes the response.

  Read one operation at a time, the reference's result at `(r, s)` is the exponential of the negated width of centre
  `s` times the squared distance spelt as  (0 + Σ_k x(r,k)²) + (0 + Σ_k ce(s,k)²) - 2 · Σ_k x(r,k) · ce(s,k): the two
  norms are sums started from the zero word, re-laid and repeated over the result's shape, and the inner products are
  one contraction of the points against the centres along their shared second axis. Adding to zero changes nothing, so
  this is the response.
-/
import proofs.«160855_j24137716204066_1_alg».proof.Proof.Gen.ReferenceIdeal.Read
import proofs.«160855_j24137716204066_1_alg».proof.Proof.Spec

noncomputable section

namespace Cert.ReferenceIdeal.AsResponse

open Cert.ReferenceIdeal Cert.ReferenceIdeal.Read Idealize.ShloMosaic Idealize.ShloMosaic.ValueIdx

/-! ## Where each stage reads its operand: the composed index maps, by coordinates -/

theorem width_idx (i : S16384x2048.Idx) : idx_main_v13 (idx_main_v15 i) = ix1 (i 1) :=
  funext fun a => Fin.ext (by match a with | ⟨0, _⟩ => rfl)

theorem pointNorm_idx (i : S16384x2048.Idx) (k : Fin 512) : idx_main_v1 (idx_main_v2 (idx_main_v7 i)) k = ix2 (i 0) k :=
  funext fun a => Fin.ext (by match a with | ⟨0, _⟩ => rfl | ⟨1, _⟩ => rfl)

theorem centreNorm_idx (i : S16384x2048.Idx) (k : Fin 512) : idx_main_v4 (idx_main_v6 (idx_main_v8 i)) k = ix2 (i 1) k :=
  funext fun a => Fin.ext (by match a with | ⟨0, _⟩ => rfl | ⟨1, _⟩ => rfl)

theorem crossPoint_idx (i : S16384x2048.Idx) (k : Fin 512) : lidx_main_v5 i k = ix2 (i 0) k :=
  funext fun a => Fin.ext (by match a with | ⟨0, _⟩ => rfl | ⟨1, _⟩ => rfl)

theorem crossCentre_idx (i : S16384x2048.Idx) (k : Fin 512) : ridx_main_v5 i k = ix2 (i 1) k :=
  funext fun a => Fin.ext (by match a with | ⟨0, _⟩ => rfl | ⟨1, _⟩ => rfl)

/-! ## The result -/

/-- The reference's last stage is the response of the three argument arrays. -/
theorem result_eq (x : S16384x512.Idx → EReal) (ce : S2048x512.Idx → EReal) (be : S2048.Idx → EReal) :
    val_main_v17 (F := Ideal) x ce be = Cert.Rbf.response x ce be := by
  funext i
  rw [val_main_v17_apply, val_main_v16_apply, val_main_v15_apply, val_main_v14_apply, val_main_v13_apply,
    val_main_v12_apply, val_main_v9_apply, val_main_v7_apply, val_main_v2_apply, val_main_v1_apply,
    val_main_v8_apply, val_main_v6_apply, val_main_v4_apply, val_main_v11_apply, val_main_v10_apply,
    val_main_cst_1_apply, val_main_v5_apply]
  simp only [val_main_v0_apply, val_main_v3_apply, val_main_cst_apply, val_main_cst_0_apply,
    width_idx, pointNorm_idx, centreNorm_idx, crossPoint_idx, crossCentre_idx,
    Ideal.hostUnary_exp_def, Ideal.mulf_def, Ideal.hostNegf_def, Ideal.negf_def, Ideal.subf_def, Ideal.addf_def,
    Ideal.ofBits_def, Ideal.ofBits_zero_f32, zero_add]
  rfl

end Cert.ReferenceIdeal.AsResponse

end
-- ==== Proof.lean ====
/-
  The Gaussian radial-basis layer  out(r, s) = exp (-β(s) · ‖x(r) - ce(s)‖²), with the squared distance expanded as
  ‖x(r)‖² + ‖ce(s)‖² - 2 · x(r)·ce(s): a tiled kernel against the plain array program, equal over the extended reals.

  The kernel tiles the result in 16 × 4 blocks of 1024 × 512 entries. Each grid point takes the squared norms of its 1024
  points and of its 512 centres (columns of the centre table, transposed beforehand), their 1024 × 512 inner products as
  one block product, and stores exp ((0 - β) · (norms - 2 · product)). The reference takes the norms of all points and
  all centres, all inner products in one contraction, and applies the same final expression with -β. Over the extended
  reals narrowing a factor to a shorter float format is the identity, a block product into a zero accumulator is the sum
  of products, a sum started from zero is the sum, and 0 - β = -β: both programs produce, entry by entry, the same
  expression in the same three arrays. No law that needs finiteness is used, so the precondition is never opened.

  The modules: Spec (the response as one function of the three arrays), Payload (one entry of the block a grid point
  stores), KernelArray (the blocks a point reads, what it writes back, the cover of the result by the 64 blocks, the
  kernel's run), RefValue (the reference's result is the response). Here: the five claims.
-/
import proofs.«160855_j24137716204066_1_alg».proof.Defs
import proofs.«160855_j24137716204066_1_alg».proof.Proof.Gen.Kernel
import proofs.«160855_j24137716204066_1_alg».proof.Proof.Gen.Kernel.Skeleton
import proofs.«160855_j24137716204066_1_alg».proof.Proof.Gen.Kernel.Launch
import proofs.«160855_j24137716204066_1_alg».proof.Proof.Gen.Kernel.Points
import proofs.«160855_j24137716204066_1_alg».proof.Proof.Gen.Kernel.Frame
import proofs.«160855_j24137716204066_1_alg».proof.Proof.Gen.KernelIdeal
import proofs.«160855_j24137716204066_1_alg».proof.Proof.Gen.KernelIdeal.Skeleton
import proofs.«160855_j24137716204066_1_alg».proof.Proof.Gen.KernelIdeal.Launch
import proofs.«160855_j24137716204066_1_alg».proof.Proof.Gen.KernelIdeal.Points
import proofs.«160855_j24137716204066_1_alg».proof.Proof.Gen.KernelIdeal.Frame
import proofs.«160855_j24137716204066_1_alg».proof.Proof.Gen.ReferenceIdeal
import proofs.«160855_j24137716204066_1_alg».proof.Proof.Gen.Pre_finite_inputs
import proofs.«160855_j24137716204066_1_alg».proof.Proof.Gen.KernelIdeal.Value
import proofs.«160855_j24137716204066_1_alg».proof.Proof.Gen.ReferenceIdeal.Run
import proofs.«160855_j24137716204066_1_alg».proof.Proof.Gen.ReferenceIdeal.Read
import proofs.«160855_j24137716204066_1_alg».proof.Proof.KernelArray
import proofs.«160855_j24137716204066_1_alg».proof.Proof.RefValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference is a straight line of array operations: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- Nothing of the kernel was rewritten on the way to the extended reals. -/
theorem preserves : Cert.preserves_Kernel_KernelIdeal := trivial

/-- From memories that agree on the three arguments both programs end with the result array at the response of those
    arguments. -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.AsResponse.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
